-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S16384x4096 : Shape := ⟨2, ![16384, 4096]⟩
abbrev S16384 : Shape := ⟨1, ![16384]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8x64x4096 .f32) (main_arg1 : IVec S16384x4096 32) (main_arg2 : FVec F S16384 .f32) (main_arg3 : FVec F S16384 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8x64x4096 : Shape := ⟨3, ![8, 64, 4096]⟩
abbrev S16384x4096 : Shape := ⟨2, ![16384, 4096]⟩
abbrev S16384 : Shape := ⟨1, ![16384]⟩
abbrev S512x4096 : Shape := ⟨2, ![512, 4096]⟩
abbrev S512x16384 : Shape := ⟨2, ![512, 16384]⟩
abbrev S256x4096 : Shape := ⟨2, ![256, 4096]⟩
abbrev S256 : Shape := ⟨1, ![256]⟩
abbrev S512x256 : Shape := ⟨2, ![512, 256]⟩
abbrev S256x1 : Shape := ⟨2, ![256, 1]⟩
abbrev S1x256 : Shape := ⟨2, ![1, 256]⟩
abbrev S8x64x16384 : Shape := ⟨3, ![8, 64, 16384]⟩

abbrev nBuf : Space → Nat
  | .hbm => 7
  | .vmem => 9
  | .smem => 0
  | _ => 0

abbrev bufTy : (tb : Table) → Fin (tcTables nBuf tb) → BufTy
  | .hbm, ⟨0, _⟩ => ⟨S8x64x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S512x4096, .f32⟩
  | .hbm, ⟨5, _⟩ => ⟨S512x16384, .f32⟩
  | .hbm, ⟨6, _⟩ => ⟨S8x64x16384, .f32⟩
  | .local _ .vmem, ⟨0, _⟩ => ⟨S512x4096, .f32⟩
  | .local _ .vmem, ⟨1, _⟩ => ⟨S256x4096, .i32⟩
  | .local _ .vmem, ⟨2, _⟩ => ⟨S256x4096, .i32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S512x256, .f32⟩
  | .local _ .vmem, ⟨8, _⟩ => ⟨S512x256, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x4096_S512x4096 : S8x64x4096.ShapeCasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x16384_S8x64x16384 : S512x16384.ShapeCasts S8x64x16384
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x16384.size a
  hwx0_4 : ∀ i : grid0.Coords, EltTy.bits .f32 = 32 ∨ (Rect.block (s := S512x16384) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S16384x4096 : Shape := ⟨2, ![16384, 4096]⟩
abbrev S16384 : Shape := ⟨1, ![16384]⟩
abbrev S16384x1 : Shape := ⟨2, ![16384, 1]⟩
abbrev S8x64x16384 : Shape := ⟨3, ![8, 64, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S8x64x16384, .f32⟩
  | .hbm, ⟨9, _⟩ => ⟨S1x1x16384, .f32⟩
  | .hbm, ⟨10, _⟩ => ⟨S8x64x16384, .f32⟩
  | .hbm, ⟨11, _⟩ => ⟨S8x64x16384, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S8x64x16384_0_1_2 : S1x1x16384.BroadcastsInDim S8x64x16384 (![0, 1, 2] : Fin 3 → Fin S8x64x16384.rank)
  dot_S8x64x4096_S16384x4096_S8x64x16384_2_1_01_0_n_n_wf : DotDims.WF S8x64x4096 S16384x4096 S8x64x16384 [2] [1] [0, 1] [0] [] []

variable [Facts₀]

def dot_S8x64x4096_S16384x4096_S8x64x16384_2_1_01_0_n_n : DotDims S8x64x4096 S16384x4096 S8x64x16384 where
  lhsContracting := [2]
  rhsContracting := [1]
  lhsNonContracting := [0, 1]
  rhsNonContracting := [0]
  lhsBatch := []
  rhsBatch := []
  wf := dot_S8x64x4096_S16384x4096_S8x64x16384_2_1_01_0_n_n_wf

class Facts : Prop extends Facts₀ where

variable [Facts]
-- ==== Proof.DequantSpec.lean ====
/-
  What both programs compute, as one function of the four argument arrays.

  The weight is stored as integer words, one scale per output row.  Entry (o, k) of the dequantized weight is the word
  read as a signed integer times the scale of row o, and output (b, s, o) is the inner product over k of activation row
  (b, s) with dequantized weight row o, plus the bias of o.  The kernel computes this on the activations flattened to
  512 = 8 * 64 rows; the last section shows that flattening the activations, computing on the flat layout and splitting
  the rows again gives the same array as computing on the three-axis layout directly.
-/
import Idealize.ShloMosaic.PureOps.Ideal
import Idealize.ShloMosaic.Lib.ValueIdx
import Idealize.ShloMosaic.Lib.Pipeline.Value

noncomputable section

namespace Cert.Dequant

open Idealize.ShloMosaic Idealize.ShloMosaic.ValueIdx

/-- Activations, batch by sequence by input feature. -/
abbrev ActShape : Shape := ⟨3, ![8, 64, 4096]⟩
/-- Activations with batch and sequence merged into 512 rows. -/
abbrev ActFlat : Shape := ⟨2, ![512, 4096]⟩
/-- The quantized weight, output feature by input feature. -/
abbrev WeightShape : Shape := ⟨2, ![16384, 4096]⟩
/-- One number per output feature (scales, bias). -/
abbrev RowShape : Shape := ⟨1, ![16384]⟩
/-- The result on merged rows. -/
abbrev OutFlat : Shape := ⟨2, ![512, 16384]⟩
/-- The result, batch by sequence by output feature. -/
abbrev OutShape : Shape := ⟨3, ![8, 64, 16384]⟩

/-- Entry (o, k) of the dequantized weight: the stored word as a signed integer, times row o's scale. -/
def weightAt (wq : WeightShape.Idx → BitVec 32) (sc : RowShape.Idx → EReal) (o : Fin 16384) (k : Fin 4096) : EReal :=
  (((wq (ix2 o k)).toInt : ℝ) : EReal) * sc (ix1 o)

/-- One output of the layer on merged rows: activation row r against dequantized weight row o, plus o's bias. -/
def linearFlatAt (x : ActFlat.Idx → EReal) (wq : WeightShape.Idx → BitVec 32) (sc b : RowShape.Idx → EReal)
    (r : Fin 512) (o : Fin 16384) : EReal :=
  (∑ k : Fin 4096, x (ix2 r k) * weightAt wq sc o k) + b (ix1 o)

/-- The linear layer on merged rows. -/
def linearFlat (x : ActFlat.Idx → EReal) (wq : WeightShape.Idx → BitVec 32) (sc b : RowShape.Idx → EReal) : OutFlat.Idx → EReal :=
  fun i => linearFlatAt x wq sc b (i 0) (i 1)

/-- One output of the layer on the three-axis layout: activation row (p, q) against weight row o, plus o's bias. -/
def linearAt (x : ActShape.Idx → EReal) (wq : WeightShape.Idx → BitVec 32) (sc b : RowShape.Idx → EReal)
    (p : Fin 8) (q : Fin 64) (o : Fin 16384) : EReal :=
  (∑ k : Fin 4096, x (ix3 p q k) * weightAt wq sc o k) + b (ix1 o)

/-- The linear layer on the three-axis layout. -/
def linear (x : ActShape.Idx → EReal) (wq : WeightShape.Idx → BitVec 32) (sc b : RowShape.Idx → EReal) : OutShape.Idx → EReal :=
  fun i => linearAt x wq sc b (i 0) (i 1) (i 2)

/-- Row (p, q) of the three-axis layout is merged row 64 p + q. -/
def mergedRow (p : Fin 8) (q : Fin 64) : Fin 512 := ⟨p.val * 64 + q.val, by have := p.isLt; have := q.isLt; omega⟩

/-- Merging the first two axes of the activations reads entry (64 p + q, k) at (p, q, k): same row-major position. -/
theorem merged_act_apply (x : ActShape.Idx → EReal) (h : ActShape.ShapeCasts ActFlat) (p : Fin 8) (q : Fin 64) (k : Fin 4096) :
    shapeCast ActFlat x h (ix2 (mergedRow p q) k) = x (ix3 p q k) :=
  shapeCast_apply x h _ _ (by
    rw [Shape.rowMajor_val_three, Shape.rowMajor_val_two]
    rfl)

/-- Splitting the merged rows of a result reads entry (p, q, o) at (64 p + q, o). -/
theorem split_out_apply (y : OutFlat.Idx → EReal) (h : OutFlat.ShapeCasts OutShape) (p : Fin 8) (q : Fin 64) (o : Fin 16384) :
    shapeCast OutShape y h (ix3 p q o) = y (ix2 (mergedRow p q) o) :=
  shapeCast_apply y h _ _ (by
    rw [Shape.rowMajor_val_three, Shape.rowMajor_val_two]
    rfl)

/-- Merge the activations' rows, apply the layer on merged rows, split the rows again: the layer on the three-axis
    layout.  Each output entry is the same sum term by term, since the merged row 64 p + q of the activations is row
    (p, q). -/
theorem split_linearFlat_merged (x : ActShape.Idx → EReal) (wq : WeightShape.Idx → BitVec 32) (sc b : RowShape.Idx → EReal)
    (h1 : ActShape.ShapeCasts ActFlat) (h2 : OutFlat.ShapeCasts OutShape) :
    shapeCast OutShape (linearFlat (shapeCast ActFlat x h1) wq sc b) h2 = linear x wq sc b := by
  funext i
  obtain ⟨p, q, o, rfl⟩ : ∃ (p : Fin 8) (q : Fin 64) (o : Fin 16384), i = ix3 p q o := ⟨i 0, i 1, i 2, eq_ix3 i⟩
  rw [split_out_apply]
  show linearFlatAt (shapeCast ActFlat x h1) wq sc b (mergedRow p q) o = linearAt x wq sc b p q o
  unfold linearFlatAt linearAt
  simp only [merged_act_apply]

end Cert.Dequant

end
-- ==== Proof.ReferenceValue.lean ====
/-
  The reference computes the linear layer of the specification.

  Read one operation at a time, output (b, s, o) of the reference is the sum over k of x (b, s, k) times the product of
  the converted weight word (o, k) with the scale broadcast along row o, plus the bias broadcast along o.  The two
  broadcasts read the scale and the bias at o, and the conversion of an integer word is that integer, so each entry is
  literally the specification's entry.
-/
import proofs.«173809_j59751585022726_1_alg».proof.Proof.Gen.ReferenceIdeal.Read
import proofs.«173809_j59751585022726_1_alg».proof.Proof.DequantSpec

noncomputable section

namespace Cert.Dequant.Reference

open Idealize.ShloMosaic Idealize.ShloMosaic.ValueIdx Cert.ReferenceIdeal Cert.ReferenceIdeal.Read

/-- The left operand of the contraction is read at (b, s, k). -/
theorem act_index (p : Fin 8) (q : Fin 64) (o : Fin 16384) (k : Fin 4096) : lidx_main_v4 (ix3 p q o) k = ix3 p q k :=
  funext fun a => by match a with | ⟨0, _⟩ => rfl | ⟨1, _⟩ => rfl | ⟨2, _⟩ => rfl

/-- The right operand of the contraction is read at (o, k). -/
theorem weight_index (p : Fin 8) (q : Fin 64) (o : Fin 16384) (k : Fin 4096) : ridx_main_v4 (ix3 p q o) k = ix2 o k :=
  funext fun a => by match a with | ⟨0, _⟩ => rfl | ⟨1, _⟩ => rfl

/-- The scale, broadcast to a column and then along the row, is read at the row. -/
theorem scale_index (o : Fin 16384) (k : Fin 4096) : idx_main_v1 (idx_main_v2 (ix2 o k)) = ix1 o :=
  funext fun a => by match a with | ⟨0, _⟩ => rfl

/-- The bias, broadcast over batch and sequence, is read at the output feature. -/
theorem bias_index (p : Fin 8) (q : Fin 64) (o : Fin 16384) : idx_main_v5 (idx_main_v6 (ix3 p q o)) = ix1 o :=
  funext fun a => by match a with | ⟨0, _⟩ => rfl

/-- The reference's result, as a function of the four arguments, is the specification's linear layer. -/
theorem result_eq (x0 : (⟨S8x64x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = Cert.Dequant.linear x0 x1 x2 x3 := by
  funext i
  obtain ⟨p, q, o, rfl⟩ : ∃ (p : Fin 8) (q : Fin 64) (o : Fin 16384), i = ix3 p q o := ⟨i 0, i 1, i 2, eq_ix3 i⟩
  rw [val_main_v7_apply, val_main_v4_apply, val_main_v6_apply, val_main_v5_apply, bias_index]
  show (∑ k : Fin 4096, x0 (lidx_main_v4 (ix3 p q o) k) * val_main_v3 (F := Ideal) x1 x2 (ridx_main_v4 (ix3 p q o) k)) + x3 (ix1 o)
    = linearAt x0 x1 x2 x3 p q o
  unfold linearAt
  refine congrArg (· + x3 (ix1 o)) (Finset.sum_congr rfl fun k _ => ?_)
  rw [act_index, weight_index, val_main_v3_apply, val_main_v0_apply, val_main_v2_apply, val_main_v1_apply, scale_index]
  rfl

end Cert.Dequant.Reference

end
-- ==== Proof.KernelStep.lean ====
/-
  One grid step's arithmetic, read at an output entry.

  A step holds all 512 activation rows, 256 rows of the quantized weight, and those rows' scales and biases.  It
  converts the weight words to numbers, multiplies row r of them by the r-th scale, contracts each activation row
  against each scaled weight row, and adds the r-th bias to column r.  Changes of number format do nothing to the
  values, a product against a zero accumulator is the plain sum of products, and the two broadcasts read the scale
  and the bias at the weight row, so entry (p, r) of the step's result is
      sum over k of  x (p, k) * (int (w (r, k)) * scale r)  +  bias r.
-/
import proofs.«173809_j59751585022726_1_alg».proof.Proof.Gen.KernelIdeal.Skeleton
import proofs.«173809_j59751585022726_1_alg».proof.Proof.DequantSpec
import Idealize.ShloMosaic.PureOps.Ideal.Laws
import Idealize.ShloMosaic.Lib.ValueIdx
import Idealize.ShloMosaic.Lib.ValueLayout
import Idealize.ShloMosaic.Lib.Pipeline.Value

noncomputable section

namespace Cert.Dequant.Kernel

open Idealize.ShloMosaic Idealize.ShloMosaic.ValueIdx Cert.KernelIdeal Cert.KernelIdeal.Gen

/-! ## A vector turned into a column and repeated along the rows -/

/-- A length-a vector viewed as an a-by-1 column and repeated b times along each row reads, at (p, c), entry p. -/
theorem column_repeat_apply {α : Type} {a b : ℕ} (v : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ v h) h' (ix2 p c) = v (ix1 p) := by
  rw [broadcastTo_apply _ h' (ix2 p c) (ix2 p (0 : Fin 1)) (fun ax => by
    match ax with
    | ⟨0, _⟩ =>
      show p.val = if a = 1 then 0 else p.val
      split
      · have := p.isLt; omega
      · rfl
    | ⟨1, _⟩ =>
      show 0 = if (1 : ℕ) = 1 then 0 else c.val
      rw [if_pos rfl])]
  exact shapeCast_apply v h _ _ (by
    rw [Shape.rowMajor_val_two, Shape.rowMajor_val_one]
    show p.val = p.val * 1 + 0
    omega)

/-! ## The contraction's operand indices -/

theorem lhs_axis0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_axis1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem rhs_axis0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_axis1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Both operands are contracted along their second axis: entry (p, r) of the product onto a zero accumulator is the
    sum over k of left (p, k) times right (r, k). -/
theorem rows_product_apply (l : FVec Ideal S512x4096 .bf16) (w : FVec Ideal S256x4096 .bf16) (p : Fin 512) (r : Fin 256) :
    matmul dot_S512x4096_S256x4096_S512x256_1_1_0_0_n_n none l w (constant S512x256 .f32 0x00000000#32) (ix2 p r)
      = ∑ k : Fin 4096, l (ix2 p k) * w (ix2 r k) := by
  simp only [matmul]
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p r) ((contrEquiv1 dot_S512x4096_S256x4096_S512x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S256x4096_S512x256_1_1_0_0_n_n.rhsIdx (ix2 p r) ((contrEquiv1 dot_S512x4096_S256x4096_S512x256_1_1_0_0_n_n 4096 rfl rfl).symm k) = ix2 r k := funext fun a => Fin.ext (by
    match a with
    | ⟨0, _⟩ => exact rhs_axis0 _ _
    | ⟨1, _⟩ => exact (rhs_axis1 _ _).trans hk)
  rw [el, er]

/-! ## The step's result at an entry -/

/-- Entry (p, r) of what one grid step stores, from the blocks it loaded. -/
theorem step_apply (x0 : Vec Ideal S512x4096 .f32) (x1 : Vec Ideal S256x4096 .i32) (x2 x3 : Vec Ideal S256 .f32)
    (p : Fin 512) (r : Fin 256) :
    k0_pay1 (F := Ideal) x0 x1 x2 x3 (ix2 p r)
      = (∑ k : Fin 4096, x0 (ix2 p k) * ((((x1 (ix2 r k)).toInt : ℝ) : EReal) * x2 (ix1 r))) + x3 (ix1 r) := by
  unfold k0_pay1
  rw [addf_apply, rows_product_apply, broadcastTo_1b_ab_apply, shapeCast_a_1a_apply]
  refine congrArg (· + x3 (ix1 r)) (Finset.sum_congr rfl fun k _ => ?_)
  rw [truncf_apply, shapeCast_self, truncf_apply, mulf_apply, extf_apply, sitofp_apply, column_repeat_apply]
  rfl

/-- The same against whole arrays: if the loaded blocks hold the rows of the activations, weight, scales and bias that
    output (p', o) of the layer needs, the step's entry (p, r) is that output. -/
theorem step_eq_linearFlatAt (x0 : Vec Ideal S512x4096 .f32) (x1 : Vec Ideal S256x4096 .i32) (x2 x3 : Vec Ideal S256 .f32)
    (X : ActFlat.Idx → EReal) (W : WeightShape.Idx → BitVec 32) (sc b : RowShape.Idx → EReal)
    (p : Fin 512) (r : Fin 256) (p' : Fin 512) (o : Fin 16384)
    (hx : ∀ k : Fin 4096, x0 (ix2 p k) = X (ix2 p' k))
    (hw : ∀ k : Fin 4096, x1 (ix2 r k) = W (ix2 o k))
    (hs : x2 (ix1 r) = sc (ix1 o))
    (hb : x3 (ix1 r) = b (ix1 o)) :
    k0_pay1 (F := Ideal) x0 x1 x2 x3 (ix2 p r) = linearFlatAt X W sc b p' o := by
  rw [step_apply, hs, hb]
  unfold linearFlatAt
  refine congrArg (· + b (ix1 o)) (Finset.sum_congr rfl fun k _ => ?_)
  rw [hx k, hw k]
  rfl

end Cert.Dequant.Kernel

end
-- ==== Proof.KernelBlocks.lean ====
/-
  From the grid steps to the whole flat result.

  Step t holds all 512 activation rows and rows 256 t .. 256 t + 255 of the weight, the scales and the bias, and
  writes columns 256 t .. 256 t + 255 of the 512-by-16384 result.  Entry (p, r) of the step is therefore entry
  (p, 256 t + r) of the linear layer on merged rows, and as t runs over the 64 steps the column blocks tile the
  array, so after the last step the array is that layer of the arrays the region was entered with.
-/
import proofs.«173809_j59751585022726_1_alg».proof.Proof.Gen.KernelIdeal.Frame
import proofs.«173809_j59751585022726_1_alg».proof.Proof.KernelStep
import Idealize.ShloMosaic.Lib.Pipeline.Value

set_option maxRecDepth 16384

noncomputable section

namespace Cert.Dequant.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The linear layer on merged rows, of the arrays as the region finds them. -/
abbrev flatResult (c : Dev nD) : S512x16384.Idx → Elt Ideal .f32 :=
  linearFlat (V m c main_v0) (V m c main_arg1) (V m c main_arg2) (V m c main_arg3)

/-- Which block each window is on at step t: the activations always on their one block; the weight, the scales and
    the bias on block t of their rows; the result on column block t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 1) = t.val
    ∧ win0_4.index t (0 : Fin 2) = 0 ∧ win0_4.index t (1 : Fin 2) = t.val :=
  (by decide +kernel : ∀ t : Fin grid0.N, _)

/-- A step's entry j is the layer's entry i once the loaded blocks are known to be the rows i needs (the coordinates
    of j and i taken apart, then the step's arithmetic). -/
theorem step_at_block (x0 : Vec Ideal S512x4096 .f32) (x1 : Vec Ideal S256x4096 .i32) (x2 x3 : Vec Ideal S256 .f32)
    (X : ActFlat.Idx → EReal) (W : WeightShape.Idx → BitVec 32) (sc b : RowShape.Idx → EReal)
    (j : S512x256.Idx) (i : OutFlat.Idx)
    (hx : ∀ k : Fin 4096, x0 (ix2 (n0 := 512) (j 0) k) = X (ix2 (n0 := 512) (i 0) k))
    (hw : ∀ k : Fin 4096, x1 (ix2 (n0 := 256) (j 1) k) = W (ix2 (n0 := 16384) (i 1) k))
    (hs : x2 (ix1 (n := 256) (j 1)) = sc (ix1 (n := 16384) (i 1)))
    (hb : x3 (ix1 (n := 256) (j 1)) = b (ix1 (n := 16384) (i 1))) :
    k0_pay1 (F := Ideal) x0 x1 x2 x3 j = linearFlat X W sc b i := by
  obtain ⟨p, r, rfl⟩ : ∃ (p : Fin 512) (r : Fin 256), j = ix2 p r := ⟨j 0, j 1, eq_ix2 j⟩
  obtain ⟨p', o, rfl⟩ : ∃ (p' : Fin 512) (o : Fin 16384), i = ix2 p' o := ⟨i 0, i 1, eq_ix2 i⟩
  exact step_eq_linearFlatAt x0 x1 x2 x3 X W sc b p r p' o hx hw hs hb

/-- What step t writes back is block t of the flat layer. -/
theorem flushed_eq (c : Dev nD) (t : Fin cfg0.N) :
    (dats m 0 c).flushed 4 t = ((cfg0.win 4).blk t).view.read (Elt Ideal) (flatResult m c) := by
  show (cfg0.win 4).cut (grid0.coords t) ((dats m 0 c).after 4 t) = _
  rw [after0_4]
  unfold out0_4
  rw [View.canon_unit_zero origin2]
  simp only [View.ld_unit_zero (S := S512x4096) origin2, View.ld_unit_zero (S := S256x4096) origin2, View.ld_unit_zero (S := S256) origin1]
  obtain ⟨e00, e01, e10, e11, e2, e3, e40, e41⟩ := block_indices t
  funext j
  show k0_pay1 (F := Ideal) (iblk m c 0 t) (iblk m c 1 t) (iblk m c 2 t) (iblk m c 3 t) j
    = flatResult m c (((cfg0.win 4).blk t).view.emb j)
  refine step_at_block _ _ _ _ _ _ _ _ j _ (fun k => ?_) (fun k => ?_) ?_ ?_
  · show V m c main_v0 (((cfg0.win 0).blk t).view.emb (ix2 (n0 := 512) (j 0) k)) = V m c main_v0 _
    refine congrArg (V m c main_v0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 4096 + 1 * k.val = k.val; omega
  · show V m c main_arg1 (((cfg0.win 1).blk t).view.emb (ix2 (n0 := 256) (j 1) k)) = V m c main_arg1 _
    refine congrArg (V m c main_arg1) (funext fun a => Fin.ext ?_)
    match a with
    | ⟨0, _⟩ => show win0_1.index t (0 : Fin 2) * 256 + 1 * (j 1).val = win0_4.index t (1 : Fin 2) * 256 + 1 * (j 1).val; omega
    | ⟨1, _⟩ => show win0_1.index t (1 : Fin 2) * 4096 + 1 * k.val = k.val; omega
  · show V m c main_arg2 (((cfg0.win 2).blk t).view.emb (ix1 (n := 256) (j 1))) = V m c main_arg2 _
    refine congrArg (V m c main_arg2) (funext fun a => Fin.ext ?_)
    match a with
    | ⟨0, _⟩ => show win0_2.index t (0 : Fin 1) * 256 + 1 * (j 1).val = win0_4.index t (1 : Fin 2) * 256 + 1 * (j 1).val; omega
  · show V m c main_arg3 (((cfg0.win 3).blk t).view.emb (ix1 (n := 256) (j 1))) = V m c main_arg3 _
    refine congrArg (V m c main_arg3) (funext fun a => Fin.ext ?_)
    match a with
    | ⟨0, _⟩ => show win0_3.index t (0 : Fin 1) * 256 + 1 * (j 1).val = win0_4.index t (1 : Fin 2) * 256 + 1 * (j 1).val; omega

/-- An index of the result array lies in step t's block iff each coordinate lies in the block's range. -/
theorem mem_block (t : Fin cfg0.N) (i : S512x16384.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v1).slice (win0_4.rect t)).set ↔ _
  rw [View.set_slice_whole, Rect.mem_set_unit]
  exact Iff.rfl

/-- Every entry of the result is written by some step: column o by step o / 256. -/
theorem covered (i : S512x16384.Idx) :
    ∃ t : Fin cfg0.N, (cfg0.win 4).flush t = true ∧ i ∈ ((cfg0.win 4).blk t).view.set := by
  have hi0 : (i 0).val < 512 := (i 0).isLt
  have hi1 : (i 1).val < 16384 := (i 1).isLt
  have hN : grid0.N = 64 := N_0
  have ht : (i 1).val / 256 < grid0.N := by omega
  obtain ⟨_, _, _, _, _, _, e40, e41⟩ := block_indices ⟨(i 1).val / 256, ht⟩
  refine ⟨⟨(i 1).val / 256, ht⟩, flush0_4 _, ?_⟩
  rw [mem_block]
  intro a
  match a with
  | ⟨0, _⟩ =>
    show win0_4.index ⟨(i 1).val / 256, ht⟩ (0 : Fin 2) * 512 ≤ (i 0).val ∧ (i 0).val < win0_4.index ⟨(i 1).val / 256, ht⟩ (0 : Fin 2) * 512 + 512
    omega
  | ⟨1, _⟩ =>
    show win0_4.index ⟨(i 1).val / 256, ht⟩ (1 : Fin 2) * 256 ≤ (i 1).val ∧ (i 1).val < win0_4.index ⟨(i 1).val / 256, ht⟩ (1 : Fin 2) * 256 + 256
    have e : win0_4.index ⟨(i 1).val / 256, ht⟩ (1 : Fin 2) = (i 1).val / 256 := e41
    omega

/-- The result array after the last step is the flat layer of the arrays the region was entered with. -/
theorem flat_final (c : Dev nD) : (dats m 0 c).arrAt 4 cfg0.N = flatResult m c :=
  (dats m 0 c).arrAt_eq_of_cover 4 (flatResult m c) (fun t _ => flushed_eq m c t) (covered)

end Cert.Dequant.Kernel

end
-- ==== Proof.KernelValue.lean ====
/-
  The whole kernel program's result.

  Around the grid the program only re-lays arrays: before it the activations' batch and sequence axes are merged
  into 512 rows, after it the 512 result rows are split back into batch and sequence.  The grid leaves the flat
  layer of the merged activations, so by the specification's merge-and-split law the program's result is the linear
  layer of its four arguments on the three-axis layout.
-/
import proofs.«173809_j59751585022726_1_alg».proof.Proof.Gen.KernelIdeal.Frame
import proofs.«173809_j59751585022726_1_alg».proof.Proof.KernelBlocks
import Idealize.ShloMosaic.Lib.StableHlo.Run

set_option maxRecDepth 16384

noncomputable section

namespace Cert.Dequant.Kernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The region finds the activations with batch and sequence merged: the one operation before it is that reshape. -/
theorem entry_act (c : Dev nD) :
    V m c main_v0 = shapeCast S512x4096 (m ((c : Thread nD τ).loc main_arg0)) shapeCasts_S8x64x4096_S512x4096 := by
  show StableHlo.after hostOps0 (fun b => m (c, b)) (Proc.devRef .tc main_v0) = _
  after_results
  rfl

/-- The flat layer of what the region finds is the flat layer of the merged activations and the other three
    arguments as launched. -/
theorem flatResult_eq (c : Dev nD) :
    flatResult m c = linearFlat (shapeCast S512x4096 (m ((c : Thread nD τ).loc main_arg0)) shapeCasts_S8x64x4096_S512x4096)
      (m ((c : Thread nD τ).loc main_arg1)) (m ((c : Thread nD τ).loc main_arg2)) (m ((c : Thread nD τ).loc main_arg3)) := by
  unfold flatResult
  rw [entry_act, V_main_arg1, V_main_arg2, V_main_arg3]

/-- What the operation after the region leaves in the program's result: the pipeline's array with its rows split,
    which is the linear layer of the arguments. -/
theorem result_value (c : Dev nD) :
    Pipeline.afterTail₀ cfgs (dats m) 0 (V0 m) [hostOps1] c main_v2
      = linear (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v1)
      = flatResult m c :=
    (Pipeline.withArrays_arr spec0 launch0.win.arr_inj c _ _ 4).trans (flat_final m c)
  show shapeCast S8x64x16384
      (Pipeline.withArrays (cfgs 0).spec c (V0 m c) (fun w => (dats m 0 c).arrAt w (cfgs 0).N) (Proc.devRef .tc main_v1))
      shapeCasts_S512x16384_S8x64x16384 = _
  rw [harr, flatResult_eq]
  exact split_linearFlat_merged _ _ _ _ _ _

/-- Every weakly fair execution of the kernel program terminates with its result at the linear layer of the
    arguments and the arguments unchanged. -/
theorem run : θ_run defs (onTc (τ := τ) (main (F := Ideal))) ⟨m, fun _ => 0, ρ⟩ (fun r => ∀ c : Dev nD,
      r.2.mem ((c.tc : Thread nD τ).loc main_v2)
        = linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v2 (Pipeline.mem_restRefs_of main_v2 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Dequant.Kernel

end
-- ==== Proof.lean ====
/-
  A quantized linear layer against its plain reference.

  The weight is stored as integer words with one scale per output row.  Both programs form the dequantized weight
  (the word read as a signed integer, times its row's scale) and output, for activation row (b, s) and output feature
  o, the sum over k of x (b, s, k) times dequantized weight (o, k), plus the bias of o.  Over the extended reals the
  kernel's changes of number format are the identity and its integer conversion is exact, so the two programs perform
  the same multiplications in the same order and agree entry by entry with no law of arithmetic beyond that; the
  inputs' finiteness is not used.

  What remains is bookkeeping of layout: the kernel merges batch and sequence into 512 rows, walks the 16384 output
  features in 64 blocks of 256 (each step reading the matching rows of the weight, scales and bias and writing the
  matching columns of the result), and splits the rows again.  The specification states the layer on both layouts and
  shows that merging, computing and splitting is computing directly; the kernel modules read one step at an entry,
  tile the steps into the flat result, and carry it through the two reshapes; the reference module reads the
  reference's operations at an entry.  Both runs end at the same function of the arguments.
-/
import proofs.«173809_j59751585022726_1_alg».proof.Defs
import proofs.«173809_j59751585022726_1_alg».proof.Proof.Gen.Kernel
import proofs.«173809_j59751585022726_1_alg».proof.Proof.Gen.Kernel.Skeleton
import proofs.«173809_j59751585022726_1_alg».proof.Proof.Gen.Kernel.Launch
import proofs.«173809_j59751585022726_1_alg».proof.Proof.Gen.Kernel.Points
import proofs.«173809_j59751585022726_1_alg».proof.Proof.Gen.Kernel.Frame
import proofs.«173809_j59751585022726_1_alg».proof.Proof.Gen.KernelIdeal
import proofs.«173809_j59751585022726_1_alg».proof.Proof.Gen.KernelIdeal.Skeleton
import proofs.«173809_j59751585022726_1_alg».proof.Proof.Gen.KernelIdeal.Launch
import proofs.«173809_j59751585022726_1_alg».proof.Proof.Gen.KernelIdeal.Points
import proofs.«173809_j59751585022726_1_alg».proof.Proof.Gen.KernelIdeal.Frame
import proofs.«173809_j59751585022726_1_alg».proof.Proof.Gen.ReferenceIdeal
import proofs.«173809_j59751585022726_1_alg».proof.Proof.Gen.Pre_finite_inputs
import proofs.«173809_j59751585022726_1_alg».proof.Proof.Gen.ReferenceIdeal.Run
import proofs.«173809_j59751585022726_1_alg».proof.Proof.Gen.ReferenceIdeal.Read
import proofs.«173809_j59751585022726_1_alg».proof.Proof.DequantSpec
import proofs.«173809_j59751585022726_1_alg».proof.Proof.ReferenceValue
import proofs.«173809_j59751585022726_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the linear layer of the (agreeing) arguments. -/
theorem algebraic : Cert.algebraic_KernelIdeal_ReferenceIdeal := by
  intro m ρ m' ρ' _ hagree
  refine ⟨fun c => Cert.Dequant.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Dequant.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.Dequant.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
